-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S1024x1024 : Shape := ⟨2, ![1024, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S65536x1024 .f32) (main_arg1 : FVec F S1024x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S65536x1024 : Shape := ⟨2, ![65536, 1024]⟩
abbrev S1024x1024 : Shape := ⟨2, ![1024, 1024]⟩
abbrev S_ : Shape := ⟨0, ![]⟩
abbrev S1024 : Shape := ⟨1, ![1024]⟩
abbrev S1024x1 : Shape := ⟨2, ![1024, 1]⟩
abbrev S2048x1024 : Shape := ⟨2, ![2048, 1024]⟩

abbrev nBuf : Space → Nat
  | .hbm => 14
  | .vmem => 5
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .bf16⟩
  | .hbm, ⟨13, _⟩ => ⟨S65536x1024, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S1024x1024_S1024_d1 : S1024x1024.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S65536x1024.size a
  hwx0_2 : ∀ i : grid0.Coords, EltTy.bits .f32 = 32 ∨ (Rect.block (s := S65536x1024) S2048x1024.size (cc0_transform_2 i) (hinb0_2 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x1024 : Shape := ⟨2, ![65536, 1024]⟩
abbrev S1024x1024 : Shape := ⟨2, ![1024, 1024]⟩
abbrev S_ : Shape := ⟨0, ![]⟩
abbrev S1024 : Shape := ⟨1, ![1024]⟩
abbrev S1024x1 : Shape := ⟨2, ![1024, 1]⟩

abbrev nBuf : Space → Nat
  | .hbm => 13
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  reducesTo_S1024x1024_S1024_d1 : S1024x1024.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x1024_0_1 : S1024x1.BroadcastsInDim S1024x1024 (![0, 1] : Fin 2 → Fin S1024x1024.rank)
  dot_S65536x1024_S1024x1024_S65536x1024_1_1_0_0_n_n_wf : DotDims.WF S65536x1024 S1024x1024 S65536x1024 [1] [1] [0] [0] [] []

variable [Facts₀]

def dot_S65536x1024_S1024x1024_S65536x1024_1_1_0_0_n_n : DotDims S65536x1024 S1024x1024 S65536x1024 where
  lhsContracting := [1]
  rhsContracting := [1]
  lhsNonContracting := [0]
  rhsNonContracting := [0]
  lhsBatch := []
  rhsBatch := []
  wf := dot_S65536x1024_S1024x1024_S65536x1024_1_1_0_0_n_n_wf

class Facts : Prop extends Facts₀ where

variable [Facts]
-- ==== Proof.BlockProduct.lean ====
/-
  One grid point's block of the product, read at an index.

  The kernel body loads a block of 2048 rows of the activations and the whole (already rescaled) weight, both 1024 wide,
  and stores the contraction of the two over their SECOND axes into a zero accumulator. At the ideal values the change
  of float format and the rank-preserving shape cast are identities and the zero accumulator adds nothing, so the stored
  entry at (r, o) is the plain sum over k of activations(r, k) · weight(o, k).
-/
import proofs.«150406_j16707422781541_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockProduct

open Cert.KernelIdeal Cert.KernelIdeal.Gen Idealize.ShloMosaic Idealize.ShloMosaic.TcCoe Idealize.SL.Sem

/-- Entry (r, k) of a block of activations, for the output entry `j = (r, o)`. -/
abbrev actAt (j : S2048x1024.Idx) (k : Fin 1024) : S2048x1024.Idx := fun a => match a with
  | ⟨0, _⟩ => ⟨(j 0).val, (j 0).isLt⟩
  | ⟨1, _⟩ => ⟨k.val, k.isLt⟩

/-- Entry (o, k) of the weight, for the output entry `j = (r, o)`: the weight is contracted along its second axis. -/
abbrev wgtAt (j : S2048x1024.Idx) (k : Fin 1024) : S1024x1024.Idx := fun a => match a with
  | ⟨0, _⟩ => ⟨(j 1).val, (j 1).isLt⟩
  | ⟨1, _⟩ => ⟨k.val, k.isLt⟩

/-- The left operand's free axis follows the output's row. -/
theorem lhs_axis0 (i : S2048x1024.Idx) (q : dot_S2048x1024_S1024x1024_S2048x1024_1_1_0_0_n_n.contr.Idx) :
    (dot_S2048x1024_S1024x1024_S2048x1024_1_1_0_0_n_n.lhsIdx i q 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
/-- The left operand's contracted axis follows the summation index. -/
theorem lhs_axis1 (i : S2048x1024.Idx) (q : dot_S2048x1024_S1024x1024_S2048x1024_1_1_0_0_n_n.contr.Idx) :
    (dot_S2048x1024_S1024x1024_S2048x1024_1_1_0_0_n_n.lhsIdx i q 1).val = (q ⟨0, by decide⟩).val :=
  dot_S2048x1024_S1024x1024_S2048x1024_1_1_0_0_n_n.lhsIdx_val_of_single rfl i q
/-- The right operand's free axis follows the output's column. -/
theorem rhs_axis0 (i : S2048x1024.Idx) (q : dot_S2048x1024_S1024x1024_S2048x1024_1_1_0_0_n_n.contr.Idx) :
    (dot_S2048x1024_S1024x1024_S2048x1024_1_1_0_0_n_n.rhsIdx i q 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
/-- The right operand's contracted axis follows the summation index. -/
theorem rhs_axis1 (i : S2048x1024.Idx) (q : dot_S2048x1024_S1024x1024_S2048x1024_1_1_0_0_n_n.contr.Idx) :
    (dot_S2048x1024_S1024x1024_S2048x1024_1_1_0_0_n_n.rhsIdx i q 1).val = (q ⟨0, by decide⟩).val :=
  dot_S2048x1024_S1024x1024_S2048x1024_1_1_0_0_n_n.rhsIdx_val_of_single rfl i q

/-- What the body stores, at an index: the row of the activation block against the row of the weight. -/
theorem stored_apply (x0 : Vec Ideal S2048x1024 .f32) (x1 : Vec Ideal S1024x1024 .bf16) (j : S2048x1024.Idx) :
    k0_pay1 (F := Ideal) x0 x1 j = ∑ k : Fin 1024, x0 (actAt j k) * x1 (wgtAt j k) := by
  unfold k0_pay1
  simp only [matmul, shapeCast_self]
  rw [Ideal.matmul_constant_zero_apply, ← Equiv.sum_comp (ValueIdx.contrEquiv1 dot_S2048x1024_S1024x1024_S2048x1024_1_1_0_0_n_n 1024 rfl rfl).symm]
  refine Finset.sum_congr rfl fun k _ => ?_
  have hk := ValueIdx.contrEquiv1_symm_val dot_S2048x1024_S1024x1024_S2048x1024_1_1_0_0_n_n 1024 rfl rfl k
  have el : dot_S2048x1024_S1024x1024_S2048x1024_1_1_0_0_n_n.lhsIdx j ((ValueIdx.contrEquiv1 dot_S2048x1024_S1024x1024_S2048x1024_1_1_0_0_n_n 1024 rfl rfl).symm k) = actAt j k := funext fun a => Fin.ext (by
    match a with
    | ⟨0, _⟩ => exact lhs_axis0 _ _
    | ⟨1, _⟩ => exact (lhs_axis1 _ _).trans hk)
  have er : dot_S2048x1024_S1024x1024_S2048x1024_1_1_0_0_n_n.rhsIdx j ((ValueIdx.contrEquiv1 dot_S2048x1024_S1024x1024_S2048x1024_1_1_0_0_n_n 1024 rfl rfl).symm k) = wgtAt j k := funext fun a => Fin.ext (by
    match a with
    | ⟨0, _⟩ => exact rhs_axis0 _ _
    | ⟨1, _⟩ => exact (rhs_axis1 _ _).trans hk)
  rw [el, er]
  rfl

end Cert.KernelIdeal.BlockProduct

end
-- ==== Proof.RowsByWeight.lean ====
/-
  From one grid point's block to the whole result array.

  The grid has 32 points. Point t stages rows 2048·t … 2048·t + 2047 of the activations (all 1024 columns), the whole
  rescaled weight, and writes back rows 2048·t … 2048·t + 2047 of the result. So what point t writes back is block t of
  ONE function of the two arrays the region finds on entry: entry (r, o) is the sum over k of activations(r, k) ·
  weight(o, k). The 32 blocks tile the 65536 rows (row r lies in block r / 2048), hence the result array ends holding
  that function everywhere.
-/
import proofs.«150406_j16707422781541_1_alg».proof.Proof.Gen.KernelIdeal.Value
import proofs.«150406_j16707422781541_1_alg».proof.Proof.BlockProduct

noncomputable section

namespace Cert.KernelIdeal.RowsByWeight

open Cert.KernelIdeal Cert.KernelIdeal.Gen Cert.KernelIdeal.BlockProduct Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Entry (r, k) of the activations, for the result entry `i = (r, o)`. -/
abbrev rowAt (i : S65536x1024.Idx) (k : Fin 1024) : S65536x1024.Idx := fun a => match a with
  | ⟨0, _⟩ => ⟨(i 0).val, (i 0).isLt⟩
  | ⟨1, _⟩ => ⟨k.val, k.isLt⟩

/-- Entry (o, k) of the weight, for the result entry `i = (r, o)`. -/
abbrev colAt (i : S65536x1024.Idx) (k : Fin 1024) : S1024x1024.Idx := fun a => match a with
  | ⟨0, _⟩ => ⟨(i 1).val, (i 1).isLt⟩
  | ⟨1, _⟩ => ⟨k.val, k.isLt⟩

/-- The activations times the transposed weight: entry (r, o) is the sum over k of a(r, k) · w(o, k). -/
def timesTransposed (a : S65536x1024.Idx → EReal) (w : S1024x1024.Idx → EReal) : S65536x1024.Idx → EReal :=
  fun i => ∑ k : Fin 1024, a (rowAt i k) * w (colAt i k)

theorem zeroOffsets : (![0, 0] : Fin 2 → Nat) = fun _ => 0 := funext fun a => by fin_cases a <;> rfl

/-- The printed index maps over the 32 grid points: the activations and the result move down one block of rows per point,
    the weight's one block stays. -/
theorem blockIndices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block's stored entry is the result's entry, once the activation block is known to be rows `base + ·` of the
    activations and the weight block the whole weight. -/
theorem stored_eq (a : S65536x1024.Idx → EReal) (w : S1024x1024.Idx → EReal)
    (x0 : Vec Ideal S2048x1024 .f32) (x1 : Vec Ideal S1024x1024 .bf16) (base : Nat)
    (h0 : ∀ (y : S2048x1024.Idx) (i' : S65536x1024.Idx), (i' 0).val = base + (y 0).val → (i' 1).val = (y 1).val → x0 y = a i')
    (h1 : ∀ (y : S1024x1024.Idx), x1 y = w y)
    (j : S2048x1024.Idx) (i : S65536x1024.Idx) (hi0 : (i 0).val = base + (j 0).val) (hi1 : (i 1).val = (j 1).val) :
    k0_pay1 (F := Ideal) x0 x1 j = timesTransposed a w i := by
  rw [stored_apply]
  unfold timesTransposed
  refine Finset.sum_congr rfl fun k _ => ?_
  rw [h0 (actAt j k) (rowAt i k) hi0 rfl, h1]
  exact congrArg (fun z => a (rowAt i k) * w z) (funext fun b => Fin.ext (by
    match b with
    | ⟨0, _⟩ => exact hi1.symm
    | ⟨1, _⟩ => rfl))

/-- What point `t` writes back is block `t` of the product of the arrays the region finds on entry. -/
theorem flushed_eq (c : Dev nD) (t : Fin cfg0.N) :
    (dats m 0 c).flushed 2 t = ((cfg0.win 2).blk t).view.read (Elt Ideal) (timesTransposed (V m c main_arg0) (V m c main_v8)) := by
  rw [Value.flushed2]
  unfold out0_2
  rw [View.canon_unit_zero zeroOffsets]
  simp only [View.ld_unit_zero (S := S2048x1024) zeroOffsets, View.ld_unit_zero (S := S1024x1024) zeroOffsets]
  obtain ⟨e0, e1, e2, e3, e4, e5⟩ := blockIndices t
  funext j
  show k0_pay1 (F := Ideal) (iblk m c 0 t) (iblk m c 1 t) j = timesTransposed (V m c main_arg0) (V m c main_v8) (((cfg0.win 2).blk t).view.emb j)
  refine stored_eq (V m c main_arg0) (V m c main_v8) (iblk m c 0 t) (iblk m c 1 t) (2048 * t.val) ?_ ?_ j _ ?_ ?_
  · intro y i' hy0 hy1
    show V m c main_arg0 (((cfg0.win 0).blk t).view.emb y) = V m c main_arg0 i'
    refine congrArg (V m c main_arg0) (funext fun b => Fin.ext ?_)
    match b with
    | ⟨0, _⟩ => show win0_0.index t (0 : Fin 2) * 2048 + 1 * (y 0).val = (i' 0).val; omega
    | ⟨1, _⟩ => show win0_0.index t (1 : Fin 2) * 1024 + 1 * (y 1).val = (i' 1).val; omega
  · intro y
    show V m c main_v8 (((cfg0.win 1).blk t).view.emb y) = V m c main_v8 y
    refine congrArg (V m c main_v8) (funext fun b => Fin.ext ?_)
    match b with
    | ⟨0, _⟩ => show win0_1.index t (0 : Fin 2) * 1024 + 1 * (y 0).val = (y 0).val; omega
    | ⟨1, _⟩ => show win0_1.index t (1 : Fin 2) * 1024 + 1 * (y 1).val = (y 1).val; omega
  · show win0_2.index t (0 : Fin 2) * 2048 + 1 * (j 0).val = 2048 * t.val + (j 0).val; omega
  · show win0_2.index t (1 : Fin 2) * 1024 + 1 * (j 1).val = (j 1).val; omega

/-- An index of the result is in point `t`'s block iff each coordinate is in the block's range on its axis. -/
theorem mem_block (t : Fin cfg0.N) (i : S65536x1024.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_v9).slice (win0_2.rect t)).set ↔ _
  rw [View.set_slice_whole, Rect.mem_set_unit]
  exact Iff.rfl

/-- Every entry of the result lies in the block of the point its row falls in. -/
theorem covered (i : S65536x1024.Idx) :
    ∃ t : Fin cfg0.N, (cfg0.win 2).flush t = true ∧ i ∈ ((cfg0.win 2).blk t).view.set := by
  have hi0 : (i 0).val < 65536 := (i 0).isLt
  have hi1 : (i 1).val < 1024 := (i 1).isLt
  have hN : cfg0.N = 32 := N_0
  let t : Fin cfg0.N := ⟨(i 0).val / 2048, by omega⟩
  have htv : t.val = (i 0).val / 2048 := rfl
  obtain ⟨e0, e1, e2, e3, e4, e5⟩ := blockIndices t
  refine ⟨t, flush0_2 t, ?_⟩
  rw [mem_block]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1024 ≤ (i 1).val ∧ (i 1).val < win0_2.index t (1 : Fin 2) * 1024 + 1024; omega

/-- The result array after the run: the product of the arrays the region finds on entry. -/
theorem final (c : Dev nD) : (dats m 0 c).arrAt 2 cfg0.N = timesTransposed (V m c main_arg0) (V m c main_v8) :=
  (dats m 0 c).arrAt_eq_of_cover 2 (timesTransposed (V m c main_arg0) (V m c main_v8)) (fun t _ => flushed_eq m c t) covered

end Cert.KernelIdeal.RowsByWeight

end
-- ==== Proof.SameProduct.lean ====
/-
  The two programs compute one function.

  Both programs first rescale the weight on the host, by the same operations in the same order: each row of signs is
  multiplied by the row's mean absolute value (the row's sum of absolute values divided by 1024). The kernel program
  then narrows that to the shorter float format, which is the identity on the ideal values, and hands it to the region
  as its second window's array; the reference contracts the activations with it directly, along the second axis of
  both. So the region's result (the product found block by block) and the reference's contraction are the same
  sum over k of activations(r, k) · rescaled(o, k). No entry needs to be finite: the two sides are the same sum of
  the same products, term by term.
-/
import proofs.«150406_j16707422781541_1_alg».proof.Proof.RowsByWeight
import proofs.«150406_j16707422781541_1_alg».proof.Proof.Gen.ReferenceIdeal.Run
import proofs.«150406_j16707422781541_1_alg».proof.Proof.Gen.ReferenceIdeal.Read
import Idealize.ShloMosaic.Lib.StableHlo.Run

noncomputable section

namespace Cert.KernelIdeal.RowsByWeight

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-- The rescaled weight, as a function of the weight argument: sign(w)(o, k) times the mean over k' of |w(o, k')|. -/
abbrev rescaled (w : S1024x1024.Idx → EReal) : S1024x1024.Idx → EReal :=
  Cert.ReferenceIdeal.Read.val_main_v7 (F := Ideal) w

/-- The array the region's second window stages is the rescaled weight: the host operations before the region, read back,
    the last of them (the narrowing of the float format) being the identity. -/
theorem entry_weight (c : Dev nD) :
    (V m c main_v8 : S1024x1024.Idx → EReal) = rescaled (m ((c : Thread nD τ).loc main_arg1)) := by
  dsimp only [Gen.V, Gen.hostOps0]
  after_results
  rfl

/-- The kernel program's run: the result array ends at the activations times the transposed rescaled weight. -/
theorem run : θ_run defs (onTc (τ := τ) (main (F := Ideal))) ⟨m, fun _ => 0, ρ⟩ fun r => ∀ c : Dev nD,
      r.2.mem ((c : Thread nD τ).loc main_v9) = timesTransposed (m ((c : Thread nD τ).loc main_arg0)) (rescaled (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [V_main_arg0, entry_weight])), (h c).2⟩)
    (Cert.KernelIdeal.Value.run_blocks m ρ)

/-- The reference's contraction of the activations with the rescaled weight, along the second axis of both, is that
    same product, entry by entry. -/
theorem reference_eq (x : S65536x1024.Idx → EReal) (w : S1024x1024.Idx → EReal) :
    Cert.ReferenceIdeal.Read.val_main_v8 (F := Ideal) x w = timesTransposed x (rescaled w) := by
  funext i
  rw [Cert.ReferenceIdeal.Read.val_main_v8_apply]
  rfl

end Cert.KernelIdeal.RowsByWeight

end
-- ==== Proof.lean ====
/-
  The claim: a binarised linear layer computed block by block equals its one-contraction reference.

  Both programs rescale the weight on the host in the same way (each row of signs times the row's mean absolute value).
  The kernel then forms, for each of 32 blocks of 2048 rows of the activations, the block's contraction with the rescaled
  weight along the second axis of both; the reference forms the one contraction of all 65536 rows. Entry (r, o) of either
  is the sum over k of activations(r, k) · rescaled(o, k): the blocks tile the rows, a change of float format is the
  identity on the ideal values, and a zero accumulator adds nothing. The two sums are the same products term by term, so
  no finiteness of the inputs is used.

  Proof/BlockProduct.lean   one block's stored entry as that sum
  Proof/RowsByWeight.lean   the blocks tile the rows: the result array as one function of the entry arrays
  Proof/SameProduct.lean    the entry arrays read back; the reference's contraction is the same function
-/
import proofs.«150406_j16707422781541_1_alg».proof.Defs
import proofs.«150406_j16707422781541_1_alg».proof.Proof.Gen.Kernel
import proofs.«150406_j16707422781541_1_alg».proof.Proof.Gen.Kernel.Skeleton
import proofs.«150406_j16707422781541_1_alg».proof.Proof.Gen.Kernel.Launch
import proofs.«150406_j16707422781541_1_alg».proof.Proof.Gen.Kernel.Points
import proofs.«150406_j16707422781541_1_alg».proof.Proof.Gen.Kernel.Frame
import proofs.«150406_j16707422781541_1_alg».proof.Proof.Gen.KernelIdeal
import proofs.«150406_j16707422781541_1_alg».proof.Proof.Gen.KernelIdeal.Skeleton
import proofs.«150406_j16707422781541_1_alg».proof.Proof.Gen.KernelIdeal.Launch
import proofs.«150406_j16707422781541_1_alg».proof.Proof.Gen.KernelIdeal.Points
import proofs.«150406_j16707422781541_1_alg».proof.Proof.Gen.KernelIdeal.Frame
import proofs.«150406_j16707422781541_1_alg».proof.Proof.Gen.ReferenceIdeal
import proofs.«150406_j16707422781541_1_alg».proof.Proof.Gen.Pre_finite_inputs
import proofs.«150406_j16707422781541_1_alg».proof.Proof.Gen.KernelIdeal.Value
import proofs.«150406_j16707422781541_1_alg».proof.Proof.Gen.ReferenceIdeal.Run
import proofs.«150406_j16707422781541_1_alg».proof.Proof.Gen.ReferenceIdeal.Read
import proofs.«150406_j16707422781541_1_alg».proof.Proof.SameProduct
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read at the ideal values. -/
theorem frame_kernelIdeal : Cert.frame_KernelIdeal := fun m ρ _ => Cert.KernelIdeal.Gen.frame m ρ

/-- The reference is host operations only: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both result arrays end at the activations times the transposed rescaled weight. -/
theorem algebraic : Cert.algebraic_KernelIdeal_ReferenceIdeal := by
  intro m ρ m' ρ' _ hagree
  refine ⟨_, Cert.KernelIdeal.RowsByWeight.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v8_eq]
  exact Cert.KernelIdeal.RowsByWeight.reference_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
